-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) (main_arg1 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S16x1024x1024 : Shape := ⟨3, ![16, 1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .f32 = 32 ∨ (Rect.block (s := S16x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x1024x1024.size a
  hwx0_1 : ∀ i : grid0.Coords, EltTy.bits .f32 = 32 ∨ (Rect.block (s := S16x1024x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S16x1024x1024.size a
  hwx0_2 : ∀ i : grid0.Coords, EltTy.bits .f32 = 32 ∨ (Rect.block (s := S16x1024x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x1024x1024.size a
  hwx0_3 : ∀ i : grid0.Coords, EltTy.bits .f32 = 32 ∨ (Rect.block (s := S16x1024x1024) S1x256x1024.size (cc0_transform_3 i) (hinb0_3 i)).WholeWords (EltTy.packing .f32)

variable [Facts₀]

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S_, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S16x1024, .i1⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .i1⟩
  | .hbm, ⟨12, _⟩ => ⟨S16x1024, .i1⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024x1, .f32⟩
  | .hbm, ⟨17, _⟩ => ⟨S16x1024x1024, .f32⟩
  | .hbm, ⟨18, _⟩ => ⟨S16x1024x1024, .f32⟩
  | .hbm, ⟨19, _⟩ => ⟨S_, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S16x1024, .i1⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .i1⟩
  | .hbm, ⟨29, _⟩ => ⟨S16x1024, .i1⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024x1, .f32⟩
  | .hbm, ⟨34, _⟩ => ⟨S16x1024x1024, .f32⟩
  | .hbm, ⟨35, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call2_v0 : Ref sig .tc := ⟨.hbm, 25, rfl⟩
abbrev main_call2_cst : Ref sig .tc := ⟨.hbm, 26, rfl⟩
abbrev main_call2_v1 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)

variable [Facts₀]

class Facts : Prop extends Facts₀ where

variable [Facts]
-- ==== Proof.RowNormSpec.lean ====
/-
  Row normalisation over the extended reals, as ONE function of the whole array.

  For an array `a` of shape [16, 1024, 1024], the DEGREE of row (b, r) is the sum of the row,
  `d = ∑ₖ a(b, r, k)`. The row's SCALE is the reciprocal `1 / d`, except that a reciprocal which is not a
  finite number is replaced by zero: the guard asks "does it differ from itself, or is its absolute value +∞".
  The result at (b, r, c) is `scale · a(b, r, c)`: every entry of a row is multiplied by the guarded reciprocal
  of that row's sum, which is `D⁻¹ A` with the undefined and infinite reciprocals set to zero.

  The guard is spelt two ways in the two programs: with the ORDERED not-equal comparison and the vector unit's
  division and absolute value, and with the UNORDERED not-equal comparison and the host's division and absolute
  value. The extended reals have no unordered pair (every two of them compare), so the two comparisons are one
  predicate there, and the host's division and absolute value are the vector unit's: the two spellings are one
  function (`scale_unordered`). Nothing here needs the entries to be finite: no law of arithmetic is used at all,
  the two sides are the same sum, the same quotient and the same product.
-/
import Idealize.ShloMosaic.PureOps.Ideal
import Idealize.ShloMosaic.PureOps.Ideal.Laws
import Idealize.ShloMosaic.Lib.ValueIdx

noncomputable section

open scoped BigOperators

namespace RowNorm

open Idealize.ShloMosaic Idealize.ShloMosaic.ValueIdx

/-- The reciprocal of a row's degree `s`: the word `0x3F800000` is the number one. -/
def recip (s : Ideal .f32) : Ideal .f32 :=
  FloatOps.divf (Scalar.ofBits (F := Ideal) .f32 0x3F800000#32) s

/-- The guarded reciprocal of a row's degree `s`: zero where `1 / s` differs from itself or has absolute value
    `+∞` (the word `0x7F800000`), and `1 / s` otherwise. -/
def scale (s : Ideal .f32) : Ideal .f32 :=
  Scalar.select
    (IntOp.ori (FloatOps.cmpf .one (recip s) (recip s))
      (FloatOps.cmpf .oeq (FloatOps.absf (recip s)) (Scalar.ofBits (F := Ideal) .f32 0x7F800000#32)))
    (Scalar.ofBits (F := Ideal) .f32 0x00000000#32)
    (recip s)

/-- The same guard spelt with the unordered comparison and the host's division and absolute value: over the
    extended reals "unordered or different" is "different", and the host's two operations are the vector unit's. -/
theorem scale_unordered (s : Ideal .f32) :
    Scalar.select
      (IntOp.ori
        (FloatOps.cmpf .une (FloatOps.hostDivf (FloatOps.ofBits (F := Ideal) .f32 0x3F800000#32) s)
          (FloatOps.hostDivf (FloatOps.ofBits (F := Ideal) .f32 0x3F800000#32) s))
        (FloatOps.cmpf .oeq (FloatOps.hostAbsf (FloatOps.hostDivf (FloatOps.ofBits (F := Ideal) .f32 0x3F800000#32) s))
          (FloatOps.ofBits (F := Ideal) .f32 0x7F800000#32)))
      (FloatOps.ofBits (F := Ideal) .f32 0x00000000#32)
      (FloatOps.hostDivf (FloatOps.ofBits (F := Ideal) .f32 0x3F800000#32) s)
    = scale s := rfl

/-- The degree of row `(b, r)`: the sum of its 1024 entries. -/
def degree (a : (⟨3, ![16, 1024, 1024]⟩ : Shape).Idx → Ideal .f32) (b : Fin 16) (r : Fin 1024) : Ideal .f32 :=
  ∑ k : Fin 1024, a (ix3 b r k)

/-- ROW NORMALISATION: each entry times the guarded reciprocal of its row's degree. -/
def rowNorm (a : (⟨3, ![16, 1024, 1024]⟩ : Shape).Idx → Ideal .f32) :
    (⟨3, ![16, 1024, 1024]⟩ : Shape).Idx → Ideal .f32 :=
  fun i => scale (degree a (i 0) (i 1)) * a i

end RowNorm

end
-- ==== Proof.RowNormRef.lean ====
/-
  The reference computes row normalisation. Read one operation at a time, its first result at (b, r, c) is the
  product of the argument's entry there with the guarded reciprocal of a host sum over the last axis at (b, r):
  the two broadcasts only carry the row's scale along the row, the host sum from the initial value zero is the
  row's degree, and the guard is the unordered spelling of the specification's. The second result is the same
  operations applied to the second argument.
-/
import proofs.«180542_j37323265803068_1_alg».proof.Proof.Gen.ReferenceIdeal.Read
import proofs.«180542_j37323265803068_1_alg».proof.Proof.RowNormSpec

noncomputable section

open scoped BigOperators

namespace Cert.ReferenceIdeal.RowNormRef

open Cert.ReferenceIdeal Cert.ReferenceIdeal.Gen Cert.ReferenceIdeal.Read
open Idealize.ShloMosaic Idealize.ShloMosaic.ValueIdx

/-- The host's sum over the last axis, read where the two broadcasts read it for entry `i`, is the degree of
    `i`'s row: the initial value is zero, and the summed entries are those of row `(i 0, i 1)`. -/
theorem degree_eq (x : (⟨S16x1024x1024, .f32⟩ : BufTy).Contents (Elt Ideal)) (i : S16x1024x1024.Idx) :
    val_main_v0 (F := Ideal) x (idx_main_v8 (idx_main_v9 i)) = RowNorm.degree x (i 0) (i 1) := by
  rw [val_main_v0_apply, val_main_cst_apply]
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The reference's first result is the row normalisation of its first argument. -/
theorem first_eq (x : (⟨S16x1024x1024, .f32⟩ : BufTy).Contents (Elt Ideal)) :
    val_main_v10 (F := Ideal) x = RowNorm.rowNorm x := by
  funext i
  rw [val_main_v10_apply, val_main_v9_apply, val_main_v8_apply]
  simp only [val_main_v7_apply, val_main_v5_apply, val_main_v3_apply, val_main_v4_apply, val_main_call0_v0_apply,
    val_main_v2_apply, val_main_v1_apply, val_main_cst_0_apply, val_main_call0_v1_apply, val_main_call0_cst_apply,
    val_main_v6_apply, val_main_cst_1_apply, degree_eq]
  exact congrArg (· * x i) (RowNorm.scale_unordered _)

/-- The second result is the same operations applied to the second argument. -/
theorem second_eq (x : (⟨S16x1024x1024, .f32⟩ : BufTy).Contents (Elt Ideal)) :
    val_main_v21 (F := Ideal) x = RowNorm.rowNorm x :=
  (rfl : val_main_v21 (F := Ideal) x = val_main_v10 (F := Ideal) x).trans (first_eq x)

end Cert.ReferenceIdeal.RowNormRef

end
-- ==== Proof.RowNormBlock.lean ====
/-
  One block of the kernel. At a grid point the body holds rows `256·j … 256·j + 255` of batch entry `b` of an
  argument as a [1, 256, 1024] block `B`, and stores the block `E` with
      E(0, r, c) = guard(1 / ∑ₖ B(0, r, k)) · B(0, r, c):
  the lane sum of row `r` is that row's degree (the rows are whole, all 1024 lanes are in the block), the
  reciprocal and its guard are computed per row and carried along the row by the broadcast, and the product is
  taken entry by entry. So where the block's entries are the array's entries at positions shifted by the block's
  offsets — batch and row shifted, lanes not — the stored block is the row normalisation of the ARRAY read at
  those positions: a row's degree does not depend on which block the row is read through.
-/
import proofs.«180542_j37323265803068_1_alg».proof.Proof.Gen.KernelIdeal.Value
import proofs.«180542_j37323265803068_1_alg».proof.Proof.RowNormSpec
import Idealize.ShloMosaic.Lib.Pipeline.Value
import Idealize.ShloMosaic.PureOps.Ideal.Laws
import Idealize.ShloMosaic.Lib.ValueIdx

noncomputable section

open scoped BigOperators

namespace Cert.KernelIdeal.RowNormBlock

open Cert.KernelIdeal Cert.KernelIdeal.Gen Cert.KernelIdeal.Value
open Idealize.ShloMosaic Idealize.ShloMosaic.ValueIdx

/-- The lane sum of row `r` of a block, read over the extended reals, is the sum of the row's 1024 entries: the
    block's leading unit axis is dropped by a shape cast that keeps row-major positions. -/
theorem lane_sum (B : Vec Ideal S1x256x1024 .f32) (r : Fin 256)
    (hacc : (0x00000000#32 : BitVec 32) = 0x00000000#32) :
    (multiReduction (F := Ideal) .add [1] S256 (shapeCast S256x1024 B shapeCasts_S1x256x1024_S256x1024) 0x00000000#32
        reduces_S256x1024_S256 (.inl rfl) hacc) (ix1 r)
      = ∑ k : Fin 1024, B (ix3 (0 : Fin 1) r k) := by
  refine (Ideal.multiReduction_add_single (shapeCast S256x1024 B shapeCasts_S1x256x1024_S256x1024) 0x00000000#32
    reduces_S256x1024_S256 (.inl rfl) hacc (ix1 r)).trans ?_
  refine Finset.sum_congr rfl fun k _ => ?_
  refine shapeCast_apply _ _ _ (ix3 (0 : Fin 1) r k) ?_
  rw [Shape.rowMajor_val_three, Shape.rowMajor_val_two]
  show (0 * 256 + r.val) * 1024 + k.val = r.val * 1024 + k.val
  omega

/-- The guarded product with the four row sums it mentions named apart: if each is the degree `s` and the entry is
    `q`, it is the specification's `scale s · q`. -/
theorem guarded_product (s0 s1 s2 s3 s p q : Ideal .f32) (h0 : s0 = s) (h1 : s1 = s) (h2 : s2 = s) (h3 : s3 = s)
    (hp : p = q) :
    FloatOps.mulf
      (Scalar.select
        (IntOp.ori
          (FloatOps.cmpf .one (FloatOps.divf (Scalar.ofBits (F := Ideal) .f32 0x3F800000#32) s0)
            (FloatOps.divf (Scalar.ofBits (F := Ideal) .f32 0x3F800000#32) s1))
          (FloatOps.cmpf .oeq (FloatOps.absf (FloatOps.divf (Scalar.ofBits (F := Ideal) .f32 0x3F800000#32) s2))
            (Scalar.ofBits (F := Ideal) .f32 0x7F800000#32)))
        (Scalar.ofBits (F := Ideal) .f32 0x00000000#32)
        (FloatOps.divf (Scalar.ofBits (F := Ideal) .f32 0x3F800000#32) s3))
      p
    = RowNorm.scale s * q := by
  subst h0 h1 h2 h3 hp
  rfl

/-- The block the body stores for the first output, entry by entry: the entry times the guarded reciprocal of its
    row's sum. -/
theorem stored_block (B : Vec Ideal S1x256x1024 .f32) (y : S1x256x1024.Idx) :
    E2 (F := Ideal) B y = RowNorm.scale (∑ k : Fin 1024, B (ix3 (0 : Fin 1) (y 1) k)) * B y := by
  have hy0 : (y 0).val < 1 := (y 0).isLt
  have row : ∀ j : S256.Idx, j = ix1 (y 1) →
      (multiReduction (F := Ideal) .add [1] S256 (shapeCast S256x1024 B shapeCasts_S1x256x1024_S256x1024) 0x00000000#32
        reduces_S256x1024_S256 (.inl rfl) rfl) j = ∑ k : Fin 1024, B (ix3 (0 : Fin 1) (y 1) k) :=
    fun j hj => hj ▸ lane_sum B (y 1) rfl
  have e0 : ix2_0 y = ix1 (y 1) := funext fun a => by match a with | ⟨0, _⟩ => rfl
  have e1 : ix2_1 y = ix1 (y 1) := funext fun a => by match a with | ⟨0, _⟩ => rfl
  have e2 : ix2_2 y = ix1 (y 1) := funext fun a => by match a with | ⟨0, _⟩ => rfl
  have e3 : ix2_3 y = ix1 (y 1) := funext fun a => by match a with | ⟨0, _⟩ => rfl
  have e4 : ix2_4 y = y := funext fun a => Fin.ext (by
    match a with
    | ⟨0, _⟩ => show 0 = (y 0).val; omega
    | ⟨1, _⟩ => rfl
    | ⟨2, _⟩ => rfl)
  exact guarded_product _ _ _ _ _ _ _ (row _ e0) (row _ e1) (row _ e2) (row _ e3) (congrArg B e4)

/-- The second output's block is the same function of the second input's block. -/
theorem stored_block' (B : Vec Ideal S1x256x1024 .f32) (y : S1x256x1024.Idx) :
    E3 (F := Ideal) B y = RowNorm.scale (∑ k : Fin 1024, B (ix3 (0 : Fin 1) (y 1) k)) * B y :=
  stored_block B y

/-- A BLOCK OF THE ARRAY, NORMALISED, IS THE NORMALISED ARRAY'S BLOCK. Let the block's entries be the array's at the
    positions `e x`, the batch coordinate shifted by `o0`, the row by `o1`, the lane not at all. Then the row of the
    block through `y` is the whole row of the array through `e y`, so the two degrees are one sum. -/
theorem block_is_rowNorm (B : Vec Ideal S1x256x1024 .f32) (A : S16x1024x1024.Idx → Ideal .f32)
    (e : S1x256x1024.Idx → S16x1024x1024.Idx) (o0 o1 : Nat) (hB : ∀ x, B x = A (e x))
    (h0 : ∀ x, (e x 0).val = o0 + (x 0).val) (h1 : ∀ x, (e x 1).val = o1 + (x 1).val)
    (h2 : ∀ x, (e x 2).val = (x 2).val) (y : S1x256x1024.Idx) :
    RowNorm.scale (∑ k : Fin 1024, B (ix3 (0 : Fin 1) (y 1) k)) * B y = RowNorm.rowNorm A (e y) := by
  have hy0 : (y 0).val < 1 := (y 0).isLt
  show _ = RowNorm.scale (∑ k : Fin 1024, A (ix3 (e y 0) (e y 1) k)) * A (e y)
  have hs : (∑ k : Fin 1024, B (ix3 (0 : Fin 1) (y 1) k)) = ∑ k : Fin 1024, A (ix3 (e y 0) (e y 1) k) :=
    Finset.sum_congr rfl fun k _ => (hB _).trans (congrArg A (funext fun a => Fin.ext (by
      match a with
      | ⟨0, _⟩ =>
        show (e (ix3 (0 : Fin 1) (y 1) k) 0).val = (e y 0).val
        rw [h0, h0]; show o0 + 0 = o0 + (y 0).val; omega
      | ⟨1, _⟩ =>
        show (e (ix3 (0 : Fin 1) (y 1) k) 1).val = (e y 1).val
        rw [h1, h1]
      | ⟨2, _⟩ =>
        show (e (ix3 (0 : Fin 1) (y 1) k) 2).val = k.val
        rw [h2])))
  rw [hs, hB y]

end Cert.KernelIdeal.RowNormBlock

end
-- ==== Proof.RowNormKernel.lean ====
/-
  The kernel's two result arrays. The grid has 16 × 4 points; point (b, j) stages rows `256·j … 256·j + 255` of batch
  entry `b` of each argument — all 1024 lanes of each row — and writes back the same rows of each result. Every input
  window moves with its output window, so what a point writes back is a block of the row normalisation of the WHOLE
  argument array; the 64 blocks are the 16 batch entries times the 4 row groups, which cover every position. Hence
  after the run each result array is the row normalisation of its argument.
-/
import proofs.«180542_j37323265803068_1_alg».proof.Proof.Gen.KernelIdeal.Value
import proofs.«180542_j37323265803068_1_alg».proof.Proof.RowNormSpec
import proofs.«180542_j37323265803068_1_alg».proof.Proof.RowNormBlock
import Idealize.ShloMosaic.Lib.Pipeline.Value
import Idealize.ShloMosaic.Lib.ValueIdx

noncomputable section

namespace Cert.KernelIdeal.RowNormKernel

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's loads and stores begin at the block's origin. -/
theorem origin : (![0, 0, 0] : Fin 3 → Nat) = fun _ => 0 := funext fun a => by fin_cases a <;> rfl

/-- The index maps, decided over the 64 grid points: each input window sits on the same block as its output
    window, and no window is split along the lanes. -/
theorem same_blocks : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 3) = win0_3.index t (0 : Fin 3) ∧ win0_1.index t (1 : Fin 3) = win0_3.index t (1 : Fin 3)
    ∧ win0_1.index t (2 : Fin 3) = win0_3.index t (2 : Fin 3)
    ∧ win0_2.index t (2 : Fin 3) = 0 ∧ win0_3.index t (2 : Fin 3) = 0 :=
  (by decide +kernel : ∀ t : Fin grid0.N, _)

/-- Every (batch entry, row group) is some point's block, for either output. -/
theorem every_block : ∀ (q0 : Fin 16) (q1 : Fin 4), ∃ t : Fin cfg0.N,
    win0_2.index t = ![q0.val, q1.val, 0] ∧ win0_3.index t = ![q0.val, q1.val, 0] :=
  (by decide +kernel : ∀ (q0 : Fin 16) (q1 : Fin 4), ∃ t : Fin grid0.N,
    win0_2.index t = ![q0.val, q1.val, 0] ∧ win0_3.index t = ![q0.val, q1.val, 0])

/-! ## The first result -/

/-- WHAT POINT `t` WRITES BACK to the first result is block `t` of the row normalisation of the first argument. -/
theorem written_back (c : Dev nD) (t : Fin cfg0.N) :
    (dats m 0 c).flushed 2 t = ((cfg0.win 2).blk t).view.read (Elt Ideal) (RowNorm.rowNorm (V m c main_arg0)) := by
  rw [Value.flushed2]
  unfold out0_2
  simp only [View.ld_unit_zero (S := S1x256x1024) origin]
  obtain ⟨e0, e1, e2, -, -, -, z2, -⟩ := same_blocks t
  funext j
  show View.canon ([⟨r0_0, k0_pay1 (F := Ideal) (iblk m c 0 t)⟩] : List (View.Piece (Elt Ideal) S1x256x1024 .f32)) j
    = RowNorm.rowNorm (V m c main_arg0) (((cfg0.win 2).blk t).view.emb j)
  refine (canon2_eq _ j).trans ((RowNormBlock.stored_block _ j).trans ?_)
  refine RowNormBlock.block_is_rowNorm (iblk m c 0 t) (V m c main_arg0) (fun x => ((cfg0.win 2).blk t).view.emb x)
    (win0_2.index t (0 : Fin 3) * 1) (win0_2.index t (1 : Fin 3) * 256) (fun x => ?_) (fun x => ?_) (fun x => ?_)
    (fun x => ?_) j
  · show V m c main_arg0 (((cfg0.win 0).blk t).view.emb x) = V m c main_arg0 (((cfg0.win 2).blk t).view.emb x)
    refine congrArg _ (funext fun a => Fin.ext ?_)
    match a with
    | ⟨0, _⟩ => show win0_0.index t (0 : Fin 3) * 1 + 1 * (x 0).val = win0_2.index t (0 : Fin 3) * 1 + 1 * (x 0).val; omega
    | ⟨1, _⟩ => show win0_0.index t (1 : Fin 3) * 256 + 1 * (x 1).val = win0_2.index t (1 : Fin 3) * 256 + 1 * (x 1).val; omega
    | ⟨2, _⟩ => show win0_0.index t (2 : Fin 3) * 1024 + 1 * (x 2).val = win0_2.index t (2 : Fin 3) * 1024 + 1 * (x 2).val; omega
  · show win0_2.index t (0 : Fin 3) * 1 + 1 * (x 0).val = win0_2.index t (0 : Fin 3) * 1 + (x 0).val; omega
  · show win0_2.index t (1 : Fin 3) * 256 + 1 * (x 1).val = win0_2.index t (1 : Fin 3) * 256 + (x 1).val; omega
  · show win0_2.index t (2 : Fin 3) * 1024 + 1 * (x 2).val = (x 2).val; omega

/-- A position is in point `t`'s block iff each coordinate is in the block's range on its axis. -/
theorem in_block (t : Fin cfg0.N) (i : S16x1024x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v0_0).slice (win0_2.rect t)).set ↔ _
  rw [View.set_slice_whole, Rect.mem_set_unit]
  exact Iff.rfl

/-- Every position is in some point's block: batch entry `i 0`, row group `i 1 / 256`. -/
theorem covered (i : S16x1024x1024.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 1024 := (i 2).isLt
  obtain ⟨t, ht, -⟩ := every_block ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [in_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- THE FIRST RESULT after the run is the row normalisation of the first argument. -/
theorem first_result (c : Dev nD) :
    (dats m 0 c).arrAt 2 cfg0.N = RowNorm.rowNorm (m ((c : Thread nD τ).loc main_arg0)) :=
  (dats m 0 c).arrAt_eq_of_cover 2 (RowNorm.rowNorm (V m c main_arg0)) (fun t _ => written_back m c t) covered

/-! ## The second result: the same, one window further -/

/-- WHAT POINT `t` WRITES BACK to the second result is block `t` of the row normalisation of the second argument. -/
theorem written_back' (c : Dev nD) (t : Fin cfg0.N) :
    (dats m 0 c).flushed 3 t = ((cfg0.win 3).blk t).view.read (Elt Ideal) (RowNorm.rowNorm (V m c main_arg1)) := by
  rw [Value.flushed3]
  unfold out0_3
  simp only [View.ld_unit_zero (S := S1x256x1024) origin]
  obtain ⟨-, -, -, e0, e1, e2, -, z3⟩ := same_blocks t
  funext j
  show View.canon ([⟨r0_0, k0_pay2 (F := Ideal) (iblk m c 1 t)⟩] : List (View.Piece (Elt Ideal) S1x256x1024 .f32)) j
    = RowNorm.rowNorm (V m c main_arg1) (((cfg0.win 3).blk t).view.emb j)
  refine (canon3_eq _ j).trans ((RowNormBlock.stored_block' _ j).trans ?_)
  refine RowNormBlock.block_is_rowNorm (iblk m c 1 t) (V m c main_arg1) (fun x => ((cfg0.win 3).blk t).view.emb x)
    (win0_3.index t (0 : Fin 3) * 1) (win0_3.index t (1 : Fin 3) * 256) (fun x => ?_) (fun x => ?_) (fun x => ?_)
    (fun x => ?_) j
  · show V m c main_arg1 (((cfg0.win 1).blk t).view.emb x) = V m c main_arg1 (((cfg0.win 3).blk t).view.emb x)
    refine congrArg _ (funext fun a => Fin.ext ?_)
    match a with
    | ⟨0, _⟩ => show win0_1.index t (0 : Fin 3) * 1 + 1 * (x 0).val = win0_3.index t (0 : Fin 3) * 1 + 1 * (x 0).val; omega
    | ⟨1, _⟩ => show win0_1.index t (1 : Fin 3) * 256 + 1 * (x 1).val = win0_3.index t (1 : Fin 3) * 256 + 1 * (x 1).val; omega
    | ⟨2, _⟩ => show win0_1.index t (2 : Fin 3) * 1024 + 1 * (x 2).val = win0_3.index t (2 : Fin 3) * 1024 + 1 * (x 2).val; omega
  · show win0_3.index t (0 : Fin 3) * 1 + 1 * (x 0).val = win0_3.index t (0 : Fin 3) * 1 + (x 0).val; omega
  · show win0_3.index t (1 : Fin 3) * 256 + 1 * (x 1).val = win0_3.index t (1 : Fin 3) * 256 + (x 1).val; omega
  · show win0_3.index t (2 : Fin 3) * 1024 + 1 * (x 2).val = (x 2).val; omega

theorem in_block' (t : Fin cfg0.N) (i : S16x1024x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v0_1).slice (win0_3.rect t)).set ↔ _
  rw [View.set_slice_whole, Rect.mem_set_unit]
  exact Iff.rfl

theorem covered' (i : S16x1024x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 1024 := (i 2).isLt
  obtain ⟨t, -, ht⟩ := every_block ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [in_block']
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- THE SECOND RESULT after the run is the row normalisation of the second argument. -/
theorem second_result (c : Dev nD) :
    (dats m 0 c).arrAt 3 cfg0.N = RowNorm.rowNorm (m ((c : Thread nD τ).loc main_arg1)) :=
  (dats m 0 c).arrAt_eq_of_cover 3 (RowNorm.rowNorm (V m c main_arg1)) (fun t _ => written_back' m c t) covered'

/-! ## The run -/

/-- Every weakly fair execution of the kernel ends with each result array at the row normalisation of its argument
    and the arguments unchanged. -/
theorem run : θ_run defs (onTc (τ := τ) (main (F := Ideal))) ⟨m, fun _ => 0, ρ⟩ fun r => ∀ c : Dev nD,
      r.2.mem ((c : Thread nD τ).loc main_v0_0) = RowNorm.rowNorm (m ((c : Thread nD τ).loc main_arg0))
      ∧ r.2.mem ((c : Thread nD τ).loc main_v0_1) = RowNorm.rowNorm (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (first_result m c), (h c).2.1.trans (second_result m c),
      (h c).2.2.1, (h c).2.2.2⟩)
    (Value.run_blocks m ρ)

end Cert.KernelIdeal.RowNormKernel

end
-- ==== Proof.lean ====
/-
  Row normalisation `D⁻¹ A` of two [16, 1024, 1024] arrays, with the reciprocals that are not finite numbers set to
  zero: the kernel against the reference, over the extended reals.

  Both programs compute, for each argument array `a` and each position (b, r, c),
      guard(1 / ∑ₖ a(b, r, k)) · a(b, r, c),
  where `guard v` is zero when `v` differs from itself or `|v| = +∞`, and `v` otherwise (`RowNorm.rowNorm`).
  The kernel does it block by block — a point of its 16 × 4 grid holds 256 whole rows of one batch entry, sums each
  row along the lanes, and scales the row — and its 64 blocks cover the array (`RowNormKernel.run`). The reference
  does it in one piece with a host sum over the last axis and two broadcasts (`RowNormRef.first_eq`,
  `second_eq`). The two agree with no law of arithmetic at all: the lane sum and the host sum are the same sum of the
  same 1024 entries, the quotient and the product are the same, and the only difference of spelling — an ordered
  against an unordered "not equal" in the guard — is none over the extended reals, where every pair is ordered. So the
  precondition (finite inputs) is never opened: the equality holds at infinite entries too.

  The three frames are the generated ones (the reference's is its generated run with the results dropped); the
  kernel is printed at the extended reals with no rewrite, so `preserves` has nothing to state.
-/
import proofs.«180542_j37323265803068_1_alg».proof.Defs
import proofs.«180542_j37323265803068_1_alg».proof.Proof.Gen.Kernel
import proofs.«180542_j37323265803068_1_alg».proof.Proof.Gen.Kernel.Skeleton
import proofs.«180542_j37323265803068_1_alg».proof.Proof.Gen.Kernel.Launch
import proofs.«180542_j37323265803068_1_alg».proof.Proof.Gen.Kernel.Points
import proofs.«180542_j37323265803068_1_alg».proof.Proof.Gen.Kernel.Frame
import proofs.«180542_j37323265803068_1_alg».proof.Proof.Gen.KernelIdeal
import proofs.«180542_j37323265803068_1_alg».proof.Proof.Gen.KernelIdeal.Skeleton
import proofs.«180542_j37323265803068_1_alg».proof.Proof.Gen.KernelIdeal.Launch
import proofs.«180542_j37323265803068_1_alg».proof.Proof.Gen.KernelIdeal.Points
import proofs.«180542_j37323265803068_1_alg».proof.Proof.Gen.KernelIdeal.Frame
import proofs.«180542_j37323265803068_1_alg».proof.Proof.Gen.ReferenceIdeal
import proofs.«180542_j37323265803068_1_alg».proof.Proof.Gen.Pre_finite_inputs
import proofs.«180542_j37323265803068_1_alg».proof.Proof.Gen.KernelIdeal.Value
import proofs.«180542_j37323265803068_1_alg».proof.Proof.Gen.ReferenceIdeal.Run
import proofs.«180542_j37323265803068_1_alg».proof.Proof.Gen.ReferenceIdeal.Read
import proofs.«180542_j37323265803068_1_alg».proof.Proof.RowNormSpec
import proofs.«180542_j37323265803068_1_alg».proof.Proof.RowNormRef
import proofs.«180542_j37323265803068_1_alg».proof.Proof.RowNormBlock
import proofs.«180542_j37323265803068_1_alg».proof.Proof.RowNormKernel
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

/-- The reference has no kernel: its frame is its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on the two arguments, the kernel's results and the reference's are the row
    normalisations of the same two arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => RowNorm.rowNorm (m ((c.tc : Thread Cert.KernelIdeal.nD Cert.KernelIdeal.τ).loc Cert.KernelIdeal.main_arg0)),
    fun c => RowNorm.rowNorm (m ((c.tc : Thread Cert.KernelIdeal.nD Cert.KernelIdeal.τ).loc Cert.KernelIdeal.main_arg1)),
    Cert.KernelIdeal.RowNormKernel.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v10_eq, Cert.ReferenceIdeal.RowNormRef.first_eq, (hagree c).1]
  · rw [(h c).2.1, Cert.ReferenceIdeal.Read.val_main_v21_eq, Cert.ReferenceIdeal.RowNormRef.second_eq, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
